-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x64 : Shape := ⟨3, ![16384, 32, 64]⟩
abbrev S64x64 : Shape := ⟨2, ![64, 64]⟩
abbrev S_ : Shape := ⟨0, ![]⟩

class Facts : Prop where
  bcast_S_S16384x32x64 : S_.BroadcastsInDim S16384x32x64 (![] : Fin 0 → Fin S16384x32x64.rank)
  reducesTo_S16384x32x64_S_d0_1_2 : S16384x32x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S16384x32x64 .f32) (main_arg1 : FVec F S64x64 .f32) (main_arg2 : FVec F S64x64 .f32) (main_arg3 : FVec F S64x64 .f32) (main_arg4 : FVec F S64x64 .f32) : IVec S_ 1 :=
  let main_v0 : FVec F S16384x32x64 .f32 := Host.absf main_arg0
  let main_cst : FVec F S_ .f32 := constant S_ .f32 0x7F800000#32
  let main_v1 : FVec F S16384x32x64 .f32 := broadcastInDim S16384x32x64 ![] bcast_S_S16384x32x64 main_cst
  let main_v2 : IVec S16384x32x64 1 := cmpf .olt main_v0 main_v1
  let main_c : IVec S_ 1 := constantI S_ 1 1#1
  let main_v3 : IVec S_ 1 := (fun x v => Host.reduce IntOp.andi x v reducesTo_S16384x32x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S16384x32x64 : Shape := ⟨3, ![16384, 32, 64]⟩
abbrev S64x64 : Shape := ⟨2, ![64, 64]⟩
abbrev S128x32x64 : Shape := ⟨3, ![128, 32, 64]⟩
abbrev S4096x64 : Shape := ⟨2, ![4096, 64]⟩
abbrev S128x32x32 : Shape := ⟨3, ![128, 32, 32]⟩
abbrev S128x32 : Shape := ⟨2, ![128, 32]⟩
abbrev S128x32x1 : Shape := ⟨3, ![128, 32, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x32x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16384x32x64, .f32⟩
  | .local _ .vmem, ⟨0, _⟩ => ⟨S128x32x64, .f32⟩
  | .local _ .vmem, ⟨1, _⟩ => ⟨S128x32x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S128x32x64, .f32⟩
  | .local _ .vmem, ⟨7, _⟩ => ⟨S128x32x64, .f32⟩
  | _, _ => ⟨S16384x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S128x32x64_S128x32x64_0_0_0 : ∀ a, (![0, 0, 0] : Fin 3 → Nat) a + S128x32x64.size a ≤ S128x32x64.size a
  h_S128x32x64 : 0 < S128x32x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S128x32x64_S4096x64 : S128x32x64.ShapeCasts S4096x64
  shapeCasts_S4096x64_S128x32x64 : S4096x64.ShapeCasts S128x32x64
  slices_S128x32x64_o0_0_0_S128x32x32 : S128x32x64.Slices ![0, 0, 0] S128x32x32
  reduces_S128x32x32_S128x32 : S128x32x32.Reduces [2] S128x32
  shapeCasts_S128x32_S128x32x1 : S128x32.ShapeCasts S128x32x1
  broadcasts_S128x32x1_S128x32x32 : S128x32x1.Broadcasts S128x32x32
  slices_S128x32x64_o0_0_32_S128x32x32 : S128x32x64.Slices ![0, 0, 32] S128x32x32
  concatenates_S128x32x32_S128x32x32_S128x32x64_d2 : Shape.Concatenates [S128x32x32, S128x32x32] S128x32x64 2
  dot_S4096x64_S64x64_S4096x64_1_0_0_1_n_n_wf : DotDims.WF S4096x64 S64x64 S4096x64 [1] [0] [0] [1] [] []
  dot_S128x32x32_S128x32x32_S128x32x32_2_2_1_1_0_0_wf : DotDims.WF S128x32x32 S128x32x32 S128x32x32 [2] [2] [1] [1] [0] [0]
  dot_S128x32x32_S128x32x32_S128x32x32_2_1_1_2_0_0_wf : DotDims.WF S128x32x32 S128x32x32 S128x32x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x64.size a ≤ S16384x32x64.size a
  hwx0_0 : ∀ i : grid0.Coords, EltTy.bits .f32 = 32 ∨ (Rect.block (s := S16384x32x64) S128x32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x32x64.size a ≤ S16384x32x64.size a
  hwx0_5 : ∀ i : grid0.Coords, EltTy.bits .f32 = 32 ∨ (Rect.block (s := S16384x32x64) S128x32x64.size (cc0_transform_5 i) (hinb0_5 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S128x32x32_S128x32x32_S128x32x32_2_2_1_1_0_0 : DotDims S128x32x32 S128x32x32 S128x32x32 where
  lhsContracting := [2]
  rhsContracting := [2]
  lhsNonContracting := [1]
  rhsNonContracting := [1]
  lhsBatch := [0]
  rhsBatch := [0]
  wf := dot_S128x32x32_S128x32x32_S128x32x32_2_2_1_1_0_0_wf
def dot_S128x32x32_S128x32x32_S128x32x32_2_1_1_2_0_0 : DotDims S128x32x32 S128x32x32 S128x32x32 where
  lhsContracting := [2]
  rhsContracting := [1]
  lhsNonContracting := [1]
  rhsNonContracting := [2]
  lhsBatch := [0]
  rhsBatch := [0]
  wf := dot_S128x32x32_S128x32x32_S128x32x32_2_1_1_2_0_0_wf

abbrev win0_0 : Pipeline.Window sig grid0 :=
  Pipeline.Window.ofSpec (Memref.whole main_arg0) S128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x32x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x32x64 : Shape := ⟨3, ![16384, 32, 64]⟩
abbrev S64x64 : Shape := ⟨2, ![64, 64]⟩
abbrev S16384x32x2x32 : Shape := ⟨4, ![16384, 32, 2, 32]⟩
abbrev S16384x2x32x32 : Shape := ⟨4, ![16384, 2, 32, 32]⟩
abbrev S_ : Shape := ⟨0, ![]⟩
abbrev S16384x2x32 : Shape := ⟨3, ![16384, 2, 32]⟩
abbrev S16384x2x32x1 : Shape := ⟨4, ![16384, 2, 32, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x32x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16384x32x64, .f32⟩
  | .hbm, ⟨6, _⟩ => ⟨S16384x32x2x32, .f32⟩
  | .hbm, ⟨7, _⟩ => ⟨S16384x2x32x32, .f32⟩
  | .hbm, ⟨8, _⟩ => ⟨S16384x32x64, .f32⟩
  | .hbm, ⟨9, _⟩ => ⟨S16384x32x2x32, .f32⟩
  | .hbm, ⟨10, _⟩ => ⟨S16384x2x32x32, .f32⟩
  | .hbm, ⟨11, _⟩ => ⟨S16384x32x64, .f32⟩
  | .hbm, ⟨12, _⟩ => ⟨S16384x32x2x32, .f32⟩
  | .hbm, ⟨13, _⟩ => ⟨S16384x2x32x32, .f32⟩
  | .hbm, ⟨14, _⟩ => ⟨S16384x2x32x32, .f32⟩
  | .hbm, ⟨15, _⟩ => ⟨S_, .f32⟩
  | .hbm, ⟨16, _⟩ => ⟨S16384x2x32, .f32⟩
  | .hbm, ⟨17, _⟩ => ⟨S_, .f32⟩
  | .hbm, ⟨18, _⟩ => ⟨S16384x2x32, .f32⟩
  | .hbm, ⟨19, _⟩ => ⟨S16384x2x32, .f32⟩
  | .hbm, ⟨20, _⟩ => ⟨S16384x2x32x1, .f32⟩
  | .hbm, ⟨21, _⟩ => ⟨S16384x2x32x32, .f32⟩
  | .hbm, ⟨22, _⟩ => ⟨S16384x2x32x32, .f32⟩
  | .hbm, ⟨23, _⟩ => ⟨S16384x2x32x32, .f32⟩
  | .hbm, ⟨24, _⟩ => ⟨S_, .f32⟩
  | .hbm, ⟨25, _⟩ => ⟨S16384x2x32, .f32⟩
  | .hbm, ⟨26, _⟩ => ⟨S16384x2x32x1, .f32⟩
  | .hbm, ⟨27, _⟩ => ⟨S16384x2x32x32, .f32⟩
  | .hbm, ⟨28, _⟩ => ⟨S16384x2x32x32, .f32⟩
  | .hbm, ⟨29, _⟩ => ⟨S16384x2x32x32, .f32⟩
  | .hbm, ⟨30, _⟩ => ⟨S16384x32x2x32, .f32⟩
  | .hbm, ⟨31, _⟩ => ⟨S16384x32x64, .f32⟩
  | .hbm, ⟨32, _⟩ => ⟨S16384x32x64, .f32⟩
  | .hbm, ⟨33, _⟩ => ⟨S16384x32x64, .f32⟩
  | .hbm, ⟨34, _⟩ => ⟨S_, .f32⟩
  | .hbm, ⟨35, _⟩ => ⟨S16384x32x64, .f32⟩
  | .hbm, ⟨36, _⟩ => ⟨S16384x32x64, .f32⟩
  | _, _ => ⟨S16384x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S16384x32x64_S16384x32x2x32 : S16384x32x64.ShapeCasts S16384x32x2x32
  transposes_S16384x32x2x32_S16384x2x32x32_0_2_1_3 : S16384x32x2x32.Transposes [0, 2, 1, 3] S16384x2x32x32
  reducesTo_S16384x2x32x32_S16384x2x32_d3 : S16384x2x32x32.ReducesTo [3] S16384x2x32
  h_S_ : 0 < S_.numel
  bcast_S_S16384x2x32 : S_.BroadcastsInDim S16384x2x32 (![] : Fin 0 → Fin S16384x2x32.rank)
  bcast_S16384x2x32_S16384x2x32x1_0_1_2 : S16384x2x32.BroadcastsInDim S16384x2x32x1 (![0, 1, 2] : Fin 3 → Fin S16384x2x32x1.rank)
  bcast_S16384x2x32x1_S16384x2x32x32_0_1_2_3 : S16384x2x32x1.BroadcastsInDim S16384x2x32x32 (![0, 1, 2, 3] : Fin 4 → Fin S16384x2x32x32.rank)
  transposes_S16384x2x32x32_S16384x32x2x32_0_2_1_3 : S16384x2x32x32.Transposes [0, 2, 1, 3] S16384x32x2x32
  shapeCasts_S16384x32x2x32_S16384x32x64 : S16384x32x2x32.ShapeCasts S16384x32x64
  bcast_S_S16384x32x64 : S_.BroadcastsInDim S16384x32x64 (![] : Fin 0 → Fin S16384x32x64.rank)
  dot_S16384x32x64_S64x64_S16384x32x64_2_0_01_1_n_n_wf : DotDims.WF S16384x32x64 S64x64 S16384x32x64 [2] [0] [0, 1] [1] [] []
  dot_S16384x2x32x32_S16384x2x32x32_S16384x2x32x32_3_3_2_2_01_01_wf : DotDims.WF S16384x2x32x32 S16384x2x32x32 S16384x2x32x32 [3] [3] [2] [2] [0, 1] [0, 1]
  dot_S16384x2x32x32_S16384x2x32x32_S16384x2x32x32_3_2_2_3_01_01_wf : DotDims.WF S16384x2x32x32 S16384x2x32x32 S16384x2x32x32 [3] [2] [2] [3] [0, 1] [0, 1]

variable [Facts₀]

def dot_S16384x32x64_S64x64_S16384x32x64_2_0_01_1_n_n : DotDims S16384x32x64 S64x64 S16384x32x64 where
  lhsContracting := [2]
  rhsContracting := [0]
  lhsNonContracting := [0, 1]
  rhsNonContracting := [1]
  lhsBatch := []
  rhsBatch := []
  wf := dot_S16384x32x64_S64x64_S16384x32x64_2_0_01_1_n_n_wf
def dot_S16384x2x32x32_S16384x2x32x32_S16384x2x32x32_3_3_2_2_01_01 : DotDims S16384x2x32x32 S16384x2x32x32 S16384x2x32x32 where
  lhsContracting := [3]
  rhsContracting := [3]
  lhsNonContracting := [2]
  rhsNonContracting := [2]
  lhsBatch := [0, 1]
  rhsBatch := [0, 1]
  wf := dot_S16384x2x32x32_S16384x2x32x32_S16384x2x32x32_3_3_2_2_01_01_wf
def dot_S16384x2x32x32_S16384x2x32x32_S16384x2x32x32_3_2_2_3_01_01 : DotDims S16384x2x32x32 S16384x2x32x32 S16384x2x32x32 where
  lhsContracting := [3]
  rhsContracting := [2]
  lhsNonContracting := [2]
  rhsNonContracting := [3]
  lhsBatch := [0, 1]
  rhsBatch := [0, 1]
  wf := dot_S16384x2x32x32_S16384x2x32x32_S16384x2x32x32_3_2_2_3_01_01_wf

class Facts : Prop extends Facts₀ where

variable [Facts]
-- ==== Proof.AttentionSpec.lean ====
/-
  Two-head self-attention with a residual projection, as one function of the argument arrays.

  For one batch element the input is a 32 × 64 matrix X (32 tokens, 64 features) and the four weights are
  64 × 64 matrices.  With Q = X·Wq, K = X·Wk, V = X·Wv, R = X·Wr (each 32 × 64), the 64 output columns split
  into two heads of 32 columns; column e belongs to the head whose first column is 32·⌊e/32⌋.  For that head
  the score of query token q against key token k is the inner product of row q of Q and row k of K over the
  head's 32 columns; the scores of one query are turned into weights by the stabilised softmax (subtract the
  row maximum, exponentiate, divide by the row sum), and the attention output at (q, e) is the weighted sum
  over k of V k e.  The result is max(attention + R, 0).

  Everything is stated over the extended reals with the exact operations, index by index, so that both the
  tiled program and the whole-array program can be compared against it.
-/
import Idealize.ShloMosaic.PureOps.Ideal
import Idealize.ShloMosaic.Lib.ValueIdx

noncomputable section

namespace Cert.SelfAttn

open Idealize.ShloMosaic Idealize.ShloMosaic.ValueIdx

/-- A 32 × 64 matrix (one batch element's tokens × features). -/
abbrev Row : Type := Fin 32 → Fin 64 → EReal
/-- A 64 × 64 weight matrix. -/
abbrev Wt : Type := Fin 64 → Fin 64 → EReal

/-- The product X·W at (f, e): the sum over the 64 features. -/
def proj (X : Row) (W : Wt) (f : Fin 32) (e : Fin 64) : EReal :=
  ∑ d : Fin 64, X f d * W d e

/-- Column `off + a` of a head that starts at column `off`. -/
def lane (off : Nat) (h : off + 32 ≤ 64) (a : Fin 32) : Fin 64 := ⟨off + a.val, by have := a.isLt; omega⟩

/-- The score of query token q against key token k in the head starting at column `off`. -/
def score (Q K : Row) (off : Nat) (h : off + 32 ≤ 64) (q k : Fin 32) : EReal :=
  ∑ a : Fin 32, Q q (lane off h a) * K k (lane off h a)

/-- The value of the word 0xFF800000 (minus infinity), the start of every row maximum. -/
def negInf : EReal := Ideal.ofBits .f32 0xFF800000#32

/-- The value of the zero word. -/
def zero32 : EReal := Ideal.ofBits .f32 0x00000000#32

/-- The maximum of a row of 32 scores, folded from minus infinity (and joined with minus infinity once more, as
    both programs do). -/
def rowMax (s : Fin 32 → EReal) : EReal :=
  max negInf ((Finset.univ : Finset (Fin 32)).fold max negInf s)

/-- The shifted exponential of one score. -/
def expo (s : Fin 32 → EReal) (k : Fin 32) : EReal := Ideal.exp (s k - rowMax s)

/-- The softmax weight of key k. -/
def prob (s : Fin 32 → EReal) (k : Fin 32) : EReal := Ideal.div (expo s k) (∑ k' : Fin 32, expo s k')

/-- The attention output at query token q and column e, in the head starting at column `off`. -/
def attn (Q K V : Row) (off : Nat) (h : off + 32 ≤ 64) (q : Fin 32) (e : Fin 64) : EReal :=
  ∑ k : Fin 32, prob (score Q K off h q) k * V k e

/-- The first column of the head that column e belongs to: 0 or 32. -/
def headOff (e : Fin 64) : Nat := e.val / 32 * 32

theorem headOff_le (e : Fin 64) : headOff e + 32 ≤ 64 := by have := e.isLt; unfold headOff; omega

/-- One batch element's result at (f, e). -/
def rowOut (X : Row) (Wq Wk Wv Wr : Wt) (f : Fin 32) (e : Fin 64) : EReal :=
  max (attn (proj X Wq) (proj X Wk) (proj X Wv) (headOff e) (headOff_le e) f e + proj X Wr f e) zero32

/-- The 64 × 64 weight array as a matrix. -/
def wt (w : (⟨2, ![64, 64]⟩ : Shape).Idx → EReal) : Wt := fun d e => w (ix2 d e)

/-- Batch element b of the whole [16384, 32, 64] array, as a matrix. -/
def rowOfArr (x : (⟨3, ![16384, 32, 64]⟩ : Shape).Idx → EReal) (b : Fin 16384) : Row := fun f d => x (ix3 b f d)

/-- Batch element p of one [128, 32, 64] block, as a matrix. -/
def rowOfBlk (x : (⟨3, ![128, 32, 64]⟩ : Shape).Idx → EReal) (p : Fin 128) : Row := fun f d => x (ix3 p f d)

/-- THE WHOLE RESULT: the [16384, 32, 64] output as one function of the five argument arrays. -/
def G (x : (⟨3, ![16384, 32, 64]⟩ : Shape).Idx → EReal) (wq wk wv wr : (⟨2, ![64, 64]⟩ : Shape).Idx → EReal) :
    (⟨3, ![16384, 32, 64]⟩ : Shape).Idx → EReal :=
  fun i => rowOut (rowOfArr x (i 0)) (wt wq) (wt wk) (wt wv) (wt wr) (i 1) (i 2)

/-- The same for one block of 128 batch elements. -/
def Gblk (x : (⟨3, ![128, 32, 64]⟩ : Shape).Idx → EReal) (wq wk wv wr : (⟨2, ![64, 64]⟩ : Shape).Idx → EReal) :
    (⟨3, ![128, 32, 64]⟩ : Shape).Idx → EReal :=
  fun i => rowOut (rowOfBlk x (i 0)) (wt wq) (wt wk) (wt wv) (wt wr) (i 1) (i 2)

end Cert.SelfAttn

end
-- ==== Proof.RefValue.lean ====
/-
  The whole-array program computes the self-attention function `Cert.SelfAttn.G`, index by index.
-/
import proofs.«169074_j83674552861142_1_alg».proof.Proof.Gen.ReferenceIdeal.Read
import proofs.«169074_j83674552861142_1_alg».proof.Proof.AttentionSpec
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.SelfAttn

/-- The two heads start at columns 0 and 32: a head's 32 columns lie inside the 64. -/
theorem hoff (h : Fin 2) : h.val * 32 + 32 ≤ 64 := by have := h.isLt; omega

/-- A projection at (b, f, e): the sum over the 64 features d of x[b, f, d] · w[d, e]. -/
theorem proj_at (x0 : (⟨S16384x32x64, .f32⟩ : BufTy).Contents (Elt Ideal)) (w : (⟨S64x64, .f32⟩ : BufTy).Contents (Elt Ideal))
    (b : Fin 16384) (f : Fin 32) (e : Fin 64) :
    val_main_v0 (F := Ideal) x0 w (ix3 b f e) = proj (rowOfArr x0 b) (wt w) f e := by
  refine (val_main_v0_apply x0 w (ix3 b f e)).trans ?_
  unfold proj rowOfArr wt
  refine Finset.sum_congr rfl fun d _ => ?_
  have el : lidx_main_v0 (ix3 b f e) d = ix3 b f d :=
    funext fun a => by match a with | ⟨0, _⟩ => rfl | ⟨1, _⟩ => rfl | ⟨2, _⟩ => rfl
  have er : ridx_main_v0 (ix3 b f e) d = ix2 d e :=
    funext fun a => by match a with | ⟨0, _⟩ => rfl | ⟨1, _⟩ => rfl
  rw [el, er]

/-- The same projection split into heads and transposed, at (b, h, q, a): token q, column 32·h + a.
    The flat position ((b·32 + q)·2 + h)·32 + a of the [16384, 32, 2, 32] view is position
    (b·32 + q)·64 + (32·h + a) of the [16384, 32, 64] array. -/
theorem head_at (x0 : (⟨S16384x32x64, .f32⟩ : BufTy).Contents (Elt Ideal)) (w : (⟨S64x64, .f32⟩ : BufTy).Contents (Elt Ideal))
    (b : Fin 16384) (h : Fin 2) (q a : Fin 32) :
    val_main_v2 (F := Ideal) x0 w (ix4 b h q a) = proj (rowOfArr x0 b) (wt w) q (lane (h.val * 32) (hoff h) a) := by
  refine (val_main_v2_apply x0 w (ix4 b h q a)).trans ?_
  refine (val_main_v1_apply x0 w _).trans ?_
  have e1 : idx_main_v1 (idx_main_v2 (ix4 b h q a)) = ix3 b q (lane (h.val * 32) (hoff h) a) := by
    funext c
    apply Fin.ext
    have hb := b.isLt; have hh := h.isLt; have hq := q.isLt; have ha := a.isLt
    match c with
    | ⟨0, _⟩ => show (((b.val * 32 + q.val) * 2 + h.val) * 32 + a.val) / 2048 = b.val; omega
    | ⟨1, _⟩ => show (((b.val * 32 + q.val) * 2 + h.val) * 32 + a.val) / 64 % 32 = q.val; omega
    | ⟨2, _⟩ => show (((b.val * 32 + q.val) * 2 + h.val) * 32 + a.val) % 64 = h.val * 32 + a.val; omega
  exact (congrArg (val_main_v0 (F := Ideal) x0 w) e1).trans (proj_at x0 w b q _)

/-- The scores at (b, h, q, k): the inner product of query row q and key row k over the head's 32 columns. -/
theorem scores_at (x0 : (⟨S16384x32x64, .f32⟩ : BufTy).Contents (Elt Ideal)) (x1 x2 : (⟨S64x64, .f32⟩ : BufTy).Contents (Elt Ideal))
    (b : Fin 16384) (h : Fin 2) (q k : Fin 32) :
    val_main_v9 (F := Ideal) x0 x1 x2 (ix4 b h q k)
      = score (proj (rowOfArr x0 b) (wt x1)) (proj (rowOfArr x0 b) (wt x2)) (h.val * 32) (hoff h) q k := by
  refine (val_main_v9_apply x0 x1 x2 (ix4 b h q k)).trans ?_
  unfold score
  refine Finset.sum_congr rfl fun a _ => ?_
  have el : lidx_main_v9 (ix4 b h q k) a = ix4 b h q a :=
    funext fun c => by match c with | ⟨0, _⟩ => rfl | ⟨1, _⟩ => rfl | ⟨2, _⟩ => rfl | ⟨3, _⟩ => rfl
  have er : ridx_main_v9 (ix4 b h q k) a = ix4 b h k a :=
    funext fun c => by match c with | ⟨0, _⟩ => rfl | ⟨1, _⟩ => rfl | ⟨2, _⟩ => rfl | ⟨3, _⟩ => rfl
  rw [el, er, head_at x0 x1 b h q a]
  exact congrArg (_ * ·) (head_at x0 x2 b h k a)

/-- The shape fact that names the index a reduction over the last axis reads: (b, h, q) with k inserted. -/
theorem redLast : S16384x2x32x32.Reduces [3] S16384x2x32 := by decide

/-- (b, h, q) with k inserted on the last axis is (b, h, q, k). -/
theorem lift_at (b : Fin 16384) (h : Fin 2) (q k : Fin 32) :
    redLast.lift (ix3 b h q) k = ix4 b h q k :=
  funext fun c => Fin.ext (by match c with | ⟨0, _⟩ => rfl | ⟨1, _⟩ => rfl | ⟨2, _⟩ => rfl | ⟨3, _⟩ => rfl)

/-- The row maximum at (b, h, q): the fold of max from minus infinity over the 32 scores of query q. -/
theorem fold_at (x0 : (⟨S16384x32x64, .f32⟩ : BufTy).Contents (Elt Ideal)) (x1 x2 : (⟨S64x64, .f32⟩ : BufTy).Contents (Elt Ideal))
    (b : Fin 16384) (h : Fin 2) (q : Fin 32) :
    val_main_v10 (F := Ideal) x0 x1 x2 (ix3 b h q)
      = (Finset.univ : Finset (Fin 32)).fold max negInf
          (score (proj (rowOfArr x0 b) (wt x1)) (proj (rowOfArr x0 b) (wt x2)) (h.val * 32) (hoff h) q) := by
  unfold val_main_v10
  refine (Host.reduce_eq_fold_single (FloatOps.maximumf (F := Ideal) (φ := .f32)) _ _
    reducesTo_S16384x2x32x32_S16384x2x32_d3 redLast h_S_ (ix3 b h q)).trans ?_
  show (Finset.univ : Finset (Fin 32)).fold max negInf
      (val_main_v9 (F := Ideal) x0 x1 x2 ∘ redLast.lift (ix3 b h q)) = _
  refine congrArg (fun g => Finset.fold max negInf g (Finset.univ : Finset (Fin 32))) (funext fun (k : Fin 32) => ?_)
  exact (congrArg (val_main_v9 (F := Ideal) x0 x1 x2) (lift_at b h q k)).trans (scores_at x0 x1 x2 b h q k)

/-- The row maximum joined with minus infinity once more, at (b, h, q). -/
theorem max_at (x0 : (⟨S16384x32x64, .f32⟩ : BufTy).Contents (Elt Ideal)) (x1 x2 : (⟨S64x64, .f32⟩ : BufTy).Contents (Elt Ideal))
    (b : Fin 16384) (h : Fin 2) (q : Fin 32) :
    val_main_v12 (F := Ideal) x0 x1 x2 (ix3 b h q)
      = rowMax (score (proj (rowOfArr x0 b) (wt x1)) (proj (rowOfArr x0 b) (wt x2)) (h.val * 32) (hoff h) q) := by
  refine (val_main_v12_apply x0 x1 x2 (ix3 b h q)).trans ?_
  have h11 : val_main_v11 (F := Ideal) (ix3 b h q) = negInf :=
    (val_main_v11_apply (F := Ideal) (ix3 b h q)).trans (val_main_cst_0_apply (F := Ideal) _)
  unfold rowMax
  exact congrArg₂ max h11 (fold_at x0 x1 x2 b h q)

/-- The row maximum broadcast back along the keys, at (b, h, q, k). -/
theorem bmax_at (x0 : (⟨S16384x32x64, .f32⟩ : BufTy).Contents (Elt Ideal)) (x1 x2 : (⟨S64x64, .f32⟩ : BufTy).Contents (Elt Ideal))
    (b : Fin 16384) (h : Fin 2) (q k : Fin 32) :
    val_main_v14 (F := Ideal) x0 x1 x2 (ix4 b h q k)
      = rowMax (score (proj (rowOfArr x0 b) (wt x1)) (proj (rowOfArr x0 b) (wt x2)) (h.val * 32) (hoff h) q) := by
  refine (val_main_v14_apply x0 x1 x2 (ix4 b h q k)).trans ?_
  refine (val_main_v13_apply x0 x1 x2 _).trans ?_
  have e : idx_main_v13 (idx_main_v14 (ix4 b h q k)) = ix3 b h q :=
    funext fun c => by match c with | ⟨0, _⟩ => rfl | ⟨1, _⟩ => rfl | ⟨2, _⟩ => rfl
  exact (congrArg (val_main_v12 (F := Ideal) x0 x1 x2) e).trans (max_at x0 x1 x2 b h q)

/-- The shifted exponential of one score, at (b, h, q, k). -/
theorem expo_at (x0 : (⟨S16384x32x64, .f32⟩ : BufTy).Contents (Elt Ideal)) (x1 x2 : (⟨S64x64, .f32⟩ : BufTy).Contents (Elt Ideal))
    (b : Fin 16384) (h : Fin 2) (q k : Fin 32) :
    val_main_v16 (F := Ideal) x0 x1 x2 (ix4 b h q k)
      = expo (score (proj (rowOfArr x0 b) (wt x1)) (proj (rowOfArr x0 b) (wt x2)) (h.val * 32) (hoff h) q) k := by
  show Ideal.exp (val_main_v9 (F := Ideal) x0 x1 x2 (ix4 b h q k) - val_main_v14 (F := Ideal) x0 x1 x2 (ix4 b h q k)) = _
  rw [scores_at, bmax_at]
  rfl

/-- The row sum at (b, h, q): zero plus the sum over the 32 keys of the shifted exponentials. -/
theorem sum_at (x0 : (⟨S16384x32x64, .f32⟩ : BufTy).Contents (Elt Ideal)) (x1 x2 : (⟨S64x64, .f32⟩ : BufTy).Contents (Elt Ideal))
    (b : Fin 16384) (h : Fin 2) (q : Fin 32) :
    val_main_v17 (F := Ideal) x0 x1 x2 (ix3 b h q)
      = ∑ k : Fin 32, expo (score (proj (rowOfArr x0 b) (wt x1)) (proj (rowOfArr x0 b) (wt x2)) (h.val * 32) (hoff h) q) k := by
  refine (val_main_v17_apply x0 x1 x2 (ix3 b h q)).trans ?_
  have h0 : val_main_cst_1 (F := Ideal) (Shape.Idx.first h_S_) = 0 :=
    (val_main_cst_1_apply (F := Ideal) _).trans Ideal.ofBits_zero_f32
  rw [h0, zero_add]
  refine Finset.sum_congr rfl fun k _ => ?_
  have e : idx_main_v17 (ix3 b h q) k = ix4 b h q k :=
    funext fun c => by match c with | ⟨0, _⟩ => rfl | ⟨1, _⟩ => rfl | ⟨2, _⟩ => rfl | ⟨3, _⟩ => rfl
  exact (congrArg (val_main_v16 (F := Ideal) x0 x1 x2) e).trans (expo_at x0 x1 x2 b h q k)

/-- The row sum broadcast back along the keys, at (b, h, q, k). -/
theorem bsum_at (x0 : (⟨S16384x32x64, .f32⟩ : BufTy).Contents (Elt Ideal)) (x1 x2 : (⟨S64x64, .f32⟩ : BufTy).Contents (Elt Ideal))
    (b : Fin 16384) (h : Fin 2) (q k : Fin 32) :
    val_main_v19 (F := Ideal) x0 x1 x2 (ix4 b h q k)
      = ∑ k' : Fin 32, expo (score (proj (rowOfArr x0 b) (wt x1)) (proj (rowOfArr x0 b) (wt x2)) (h.val * 32) (hoff h) q) k' := by
  refine (val_main_v19_apply x0 x1 x2 (ix4 b h q k)).trans ?_
  refine (val_main_v18_apply x0 x1 x2 _).trans ?_
  have e : idx_main_v18 (idx_main_v19 (ix4 b h q k)) = ix3 b h q :=
    funext fun c => by match c with | ⟨0, _⟩ => rfl | ⟨1, _⟩ => rfl | ⟨2, _⟩ => rfl
  exact (congrArg (val_main_v17 (F := Ideal) x0 x1 x2) e).trans (sum_at x0 x1 x2 b h q)

/-- The softmax weight of key k, at (b, h, q, k). -/
theorem prob_at (x0 : (⟨S16384x32x64, .f32⟩ : BufTy).Contents (Elt Ideal)) (x1 x2 : (⟨S64x64, .f32⟩ : BufTy).Contents (Elt Ideal))
    (b : Fin 16384) (h : Fin 2) (q k : Fin 32) :
    val_main_v20 (F := Ideal) x0 x1 x2 (ix4 b h q k)
      = prob (score (proj (rowOfArr x0 b) (wt x1)) (proj (rowOfArr x0 b) (wt x2)) (h.val * 32) (hoff h) q) k := by
  refine (val_main_v20_apply x0 x1 x2 (ix4 b h q k)).trans ?_
  refine (Ideal.hostDivf_def _ _).trans ?_
  unfold prob
  exact congrArg₂ Ideal.div (expo_at x0 x1 x2 b h q k) (bsum_at x0 x1 x2 b h q k)

/-- The attention output of head h at (b, h, q, a): the weighted sum over the 32 keys of the value rows,
    at column 32·h + a. -/
theorem attn_at (x0 : (⟨S16384x32x64, .f32⟩ : BufTy).Contents (Elt Ideal)) (x1 x2 x3 : (⟨S64x64, .f32⟩ : BufTy).Contents (Elt Ideal))
    (b : Fin 16384) (h : Fin 2) (q a : Fin 32) :
    val_main_v21 (F := Ideal) x0 x1 x2 x3 (ix4 b h q a)
      = attn (proj (rowOfArr x0 b) (wt x1)) (proj (rowOfArr x0 b) (wt x2)) (proj (rowOfArr x0 b) (wt x3))
          (h.val * 32) (hoff h) q (lane (h.val * 32) (hoff h) a) := by
  refine (val_main_v21_apply x0 x1 x2 x3 (ix4 b h q a)).trans ?_
  unfold attn
  refine Finset.sum_congr rfl fun k _ => ?_
  have el : lidx_main_v21 (ix4 b h q a) k = ix4 b h q k :=
    funext fun c => by match c with | ⟨0, _⟩ => rfl | ⟨1, _⟩ => rfl | ⟨2, _⟩ => rfl | ⟨3, _⟩ => rfl
  have er : ridx_main_v21 (ix4 b h q a) k = ix4 b h k a :=
    funext fun c => by match c with | ⟨0, _⟩ => rfl | ⟨1, _⟩ => rfl | ⟨2, _⟩ => rfl | ⟨3, _⟩ => rfl
  rw [el, er, prob_at x0 x1 x2 b h q k]
  exact congrArg (_ * ·) (head_at x0 x3 b h k a)

/-- The heads merged back, at (b, f, e): column e is column e mod 32 of head ⌊e/32⌋, whose first column is
    32·⌊e/32⌋; position (b·32 + f)·64 + e of the array is position ((b·32 + f)·2 + ⌊e/32⌋)·32 + e mod 32
    of the [16384, 32, 2, 32] view. -/
theorem merged_at (x0 : (⟨S16384x32x64, .f32⟩ : BufTy).Contents (Elt Ideal)) (x1 x2 x3 : (⟨S64x64, .f32⟩ : BufTy).Contents (Elt Ideal))
    (b : Fin 16384) (f : Fin 32) (e : Fin 64) :
    val_main_v23 (F := Ideal) x0 x1 x2 x3 (ix3 b f e)
      = attn (proj (rowOfArr x0 b) (wt x1)) (proj (rowOfArr x0 b) (wt x2)) (proj (rowOfArr x0 b) (wt x3))
          (headOff e) (headOff_le e) f e := by
  have hb := b.isLt; have hf := f.isLt; have he := e.isLt
  refine (val_main_v23_apply x0 x1 x2 x3 (ix3 b f e)).trans ?_
  refine (val_main_v22_apply x0 x1 x2 x3 _).trans ?_
  have e1 : idx_main_v22 (idx_main_v23 (ix3 b f e))
      = ix4 b (⟨e.val / 32, by omega⟩ : Fin 2) f (⟨e.val % 32, by omega⟩ : Fin 32) := by
    funext c
    apply Fin.ext
    match c with
    | ⟨0, _⟩ => show ((b.val * 32 + f.val) * 64 + e.val) / 2048 = b.val; omega
    | ⟨1, _⟩ => show ((b.val * 32 + f.val) * 64 + e.val) / 32 % 2 = e.val / 32; omega
    | ⟨2, _⟩ => show ((b.val * 32 + f.val) * 64 + e.val) / 64 % 32 = f.val; omega
    | ⟨3, _⟩ => show ((b.val * 32 + f.val) * 64 + e.val) % 32 = e.val % 32; omega
  refine (congrArg (val_main_v21 (F := Ideal) x0 x1 x2 x3) e1).trans ?_
  refine (attn_at x0 x1 x2 x3 b _ f _).trans ?_
  have hl : lane (e.val / 32 * 32) (headOff_le e) (⟨e.val % 32, by omega⟩ : Fin 32) = e :=
    Fin.ext (by show e.val / 32 * 32 + e.val % 32 = e.val; omega)
  exact congrArg (attn _ _ _ (headOff e) (headOff_le e) f) hl

/-- THE REFERENCE'S RESULT is `G` of its five arguments: at (b, f, e) the merged attention plus the residual
    projection, joined with zero by max. -/
theorem ref_is_G (x0 : (⟨S16384x32x64, .f32⟩ : BufTy).Contents (Elt Ideal)) (x1 x2 x3 x4 : (⟨S64x64, .f32⟩ : BufTy).Contents (Elt Ideal)) :
    val_main_v26 (F := Ideal) x0 x1 x2 x3 x4 = G x0 x1 x2 x3 x4 := by
  funext i
  obtain ⟨b, f, e, rfl⟩ : ∃ (b : Fin 16384) (f : Fin 32) (e : Fin 64), i = ix3 b f e := ⟨i 0, i 1, i 2, eq_ix3 i⟩
  show max (val_main_v23 (F := Ideal) x0 x1 x2 x3 (ix3 b f e) + val_main_v24 (F := Ideal) x0 x4 (ix3 b f e))
      (val_main_call0_v0 (F := Ideal) (ix3 b f e))
    = rowOut (rowOfArr x0 b) (wt x1) (wt x2) (wt x3) (wt x4) f e
  have hz : val_main_call0_v0 (F := Ideal) (ix3 b f e) = zero32 :=
    (val_main_call0_v0_apply (F := Ideal) _).trans (val_main_call0_cst_apply (F := Ideal) _)
  rw [merged_at, hz]
  unfold rowOut
  exact congrArg (fun t => max (_ + t) zero32) (proj_at x0 x4 b f e)

end Cert.ReferenceIdeal.RefValue

end
-- ==== Proof.KernelBlock.lean ====
/-
  One grid point's stored block is the self-attention function of the point's input blocks, index by index.
-/
import proofs.«169074_j83674552861142_1_alg».proof.Proof.Gen.KernelIdeal.Frame
import proofs.«169074_j83674552861142_1_alg».proof.Proof.AttentionSpec
import Idealize.ShloMosaic.PureOps.Ideal.Laws
import Idealize.ShloMosaic.Lib.Pipeline.Value

noncomputable section

namespace Cert.KernelIdeal.BlockValue

open Cert.KernelIdeal Cert.KernelIdeal.Gen Idealize.ShloMosaic Idealize.ShloMosaic.ValueIdx Cert.SelfAttn

/-! ## The feature contraction: a [4096, 64] by [64, 64] product read at an index

Output index (r, e) reads the left operand at (r, k) and the right at (k, e), k the contraction coordinate. -/

theorem lhs_proj_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_proj_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_proj_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_proj_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The product into the zero accumulator at (r, e) is the sum over the 64 features. -/
theorem matmul_proj_apply {φ₁ φ₂ : FTy} (A : FVec Ideal S4096x64 φ₁) (B : FVec Ideal S64x64 φ₂) (r : Fin 4096) (e : Fin 64) :
    matmul dot_S4096x64_S64x64_S4096x64_1_0_0_1_n_n none A B (constant (F := Ideal) S4096x64 .f32 0x00000000#32) (ix2 r e)
      = ∑ k : Fin 64, A (ix2 r k) * B (ix2 k e) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 r e) ((ValueIdx.contrEquiv1 dot_S4096x64_S64x64_S4096x64_1_0_0_1_n_n 64 rfl rfl).symm k) = ix2 r k := funext fun a => Fin.ext (by
    match a with
    | ⟨0, _⟩ => exact lhs_proj_0 _ _
    | ⟨1, _⟩ => exact (lhs_proj_1 _ _).trans hk)
  have er : dot_S4096x64_S64x64_S4096x64_1_0_0_1_n_n.rhsIdx (ix2 r e) ((ValueIdx.contrEquiv1 dot_S4096x64_S64x64_S4096x64_1_0_0_1_n_n 64 rfl rfl).symm k) = ix2 k e := funext fun a => Fin.ext (by
    match a with
    | ⟨0, _⟩ => exact (rhs_proj_0 _ _).trans hk
    | ⟨1, _⟩ => exact rhs_proj_1 _ _)
  rw [el, er]

/-! ## A projection payload at an index -/

/-- Block row (p, f) is row p·32 + f of the block re-laid as [4096, 64]. -/
theorem pay2_apply (v0 : Vec Ideal S128x32x64 .f32) (p : Fin 128) (f : Fin 32) (k : Fin 64) (hr : p.val * 32 + f.val < 4096) :
    k0_pay2 (F := Ideal) v0 (ix2 ⟨p.val * 32 + f.val, hr⟩ k) = v0 (ix3 p f k) := by
  unfold k0_pay2
  refine (shapeCast_apply _ shapeCasts_S128x32x64_S4096x64 _ (ix3 p f k) ?_).trans ?_
  · rw [Shape.rowMajor_val_two, Shape.rowMajor_val_three]; rfl
  · rfl

/-- A projection payload at (p, f, e): block row (p, f) times column e of the weight, summed over the 64 features. -/
theorem pay3_apply (v0 : Vec Ideal S128x32x64 .f32) (w : Vec Ideal S64x64 .f32) (p : Fin 128) (f : Fin 32) (e : Fin 64) :
    k0_pay3 (F := Ideal) v0 w (ix3 p f e) = proj (rowOfBlk v0 p) (wt w) f e := by
  have hr : p.val * 32 + f.val < 4096 := by have := p.isLt; have := f.isLt; omega
  unfold k0_pay3
  refine (shapeCast_apply _ shapeCasts_S4096x64_S128x32x64 (ix3 p f e) (ix2 ⟨p.val * 32 + f.val, hr⟩ e) ?_).trans ?_
  · rw [Shape.rowMajor_val_two, Shape.rowMajor_val_three]; rfl
  · rw [matmul_proj_apply]
    unfold proj rowOfBlk wt
    refine Finset.sum_congr rfl fun k _ => ?_
    rw [pay2_apply]
    rfl

/-! ## The two batched [128, 32, 32] products read at an index

Both keep axis 0 as the batch axis.  The score product contracts the last axis of both operands: output (p, q, c) reads
the left at (p, q, k) and the right at (p, c, k).  The weighting product contracts the left's last axis with the right's
middle axis: output (p, q, c) reads the left at (p, q, k) and the right at (p, k, c). -/

theorem lhs_qk_0 (i : S128x32x32.Idx) (q : dot_S128x32x32_S128x32x32_S128x32x32_2_2_1_1_0_0.contr.Idx) :
    (dot_S128x32x32_S128x32x32_S128x32x32_2_2_1_1_0_0.lhsIdx i q 0).val = (i 0).val := by
  unfold DotDims.lhsIdx
  rw [dif_pos (show (0 : Fin S128x32x32.rank) ∈ dot_S128x32x32_S128x32x32_S128x32x32_2_2_1_1_0_0.lhsBatch by decide)]
  rfl
theorem lhs_qk_1 (i : S128x32x32.Idx) (q : dot_S128x32x32_S128x32x32_S128x32x32_2_2_1_1_0_0.contr.Idx) :
    (dot_S128x32x32_S128x32x32_S128x32x32_2_2_1_1_0_0.lhsIdx i q 1).val = (i 1).val := by
  unfold DotDims.lhsIdx
  rw [dif_neg (show ¬(1 : Fin S128x32x32.rank) ∈ dot_S128x32x32_S128x32x32_S128x32x32_2_2_1_1_0_0.lhsBatch by decide), dif_pos (show (1 : Fin S128x32x32.rank) ∈ dot_S128x32x32_S128x32x32_S128x32x32_2_2_1_1_0_0.lhsNonContracting by decide)]
  rfl
theorem lhs_qk_2 (i : S128x32x32.Idx) (q : dot_S128x32x32_S128x32x32_S128x32x32_2_2_1_1_0_0.contr.Idx) :
    (dot_S128x32x32_S128x32x32_S128x32x32_2_2_1_1_0_0.lhsIdx i q 2).val = (q ⟨0, by decide⟩).val :=
  dot_S128x32x32_S128x32x32_S128x32x32_2_2_1_1_0_0.lhsIdx_val_of_single rfl i q
theorem rhs_qk_0 (i : S128x32x32.Idx) (q : dot_S128x32x32_S128x32x32_S128x32x32_2_2_1_1_0_0.contr.Idx) :
    (dot_S128x32x32_S128x32x32_S128x32x32_2_2_1_1_0_0.rhsIdx i q 0).val = (i 0).val := by
  unfold DotDims.rhsIdx
  rw [dif_pos (show (0 : Fin S128x32x32.rank) ∈ dot_S128x32x32_S128x32x32_S128x32x32_2_2_1_1_0_0.rhsBatch by decide)]
  rfl
theorem rhs_qk_1 (i : S128x32x32.Idx) (q : dot_S128x32x32_S128x32x32_S128x32x32_2_2_1_1_0_0.contr.Idx) :
    (dot_S128x32x32_S128x32x32_S128x32x32_2_2_1_1_0_0.rhsIdx i q 1).val = (i 2).val := by
  unfold DotDims.rhsIdx
  rw [dif_neg (show ¬(1 : Fin S128x32x32.rank) ∈ dot_S128x32x32_S128x32x32_S128x32x32_2_2_1_1_0_0.rhsBatch by decide), dif_pos (show (1 : Fin S128x32x32.rank) ∈ dot_S128x32x32_S128x32x32_S128x32x32_2_2_1_1_0_0.rhsNonContracting by decide)]
  rfl
theorem rhs_qk_2 (i : S128x32x32.Idx) (q : dot_S128x32x32_S128x32x32_S128x32x32_2_2_1_1_0_0.contr.Idx) :
    (dot_S128x32x32_S128x32x32_S128x32x32_2_2_1_1_0_0.rhsIdx i q 2).val = (q ⟨0, by decide⟩).val :=
  dot_S128x32x32_S128x32x32_S128x32x32_2_2_1_1_0_0.rhsIdx_val_of_single rfl i q

/-- The score product into the zero accumulator at (p, q, c): the sum over the head's 32 columns. -/
theorem matmul_qk_apply {φ₁ φ₂ : FTy} (A : FVec Ideal S128x32x32 φ₁) (B : FVec Ideal S128x32x32 φ₂) (p : Fin 128) (q : Fin 32) (c : Fin 32) :
    matmul dot_S128x32x32_S128x32x32_S128x32x32_2_2_1_1_0_0 none A B (constant (F := Ideal) S128x32x32 .f32 0x00000000#32) (ix3 p q c)
      = ∑ k : Fin 32, A (ix3 p q k) * B (ix3 p c k) := by
  simp only [matmul]
  rw [Ideal.matmul_constant_zero_apply, ← Equiv.sum_comp (ValueIdx.contrEquiv1 dot_S128x32x32_S128x32x32_S128x32x32_2_2_1_1_0_0 32 rfl rfl).symm]
  refine Finset.sum_congr rfl fun k _ => ?_
  have hk := ValueIdx.contrEquiv1_symm_val dot_S128x32x32_S128x32x32_S128x32x32_2_2_1_1_0_0 32 rfl rfl k
  have el : dot_S128x32x32_S128x32x32_S128x32x32_2_2_1_1_0_0.lhsIdx (ix3 p q c) ((ValueIdx.contrEquiv1 dot_S128x32x32_S128x32x32_S128x32x32_2_2_1_1_0_0 32 rfl rfl).symm k) = ix3 p q k := funext fun a => Fin.ext (by
    match a with
    | ⟨0, _⟩ => exact lhs_qk_0 _ _
    | ⟨1, _⟩ => exact lhs_qk_1 _ _
    | ⟨2, _⟩ => exact (lhs_qk_2 _ _).trans hk)
  have er : dot_S128x32x32_S128x32x32_S128x32x32_2_2_1_1_0_0.rhsIdx (ix3 p q c) ((ValueIdx.contrEquiv1 dot_S128x32x32_S128x32x32_S128x32x32_2_2_1_1_0_0 32 rfl rfl).symm k) = ix3 p c k := funext fun a => Fin.ext (by
    match a with
    | ⟨0, _⟩ => exact rhs_qk_0 _ _
    | ⟨1, _⟩ => exact rhs_qk_1 _ _
    | ⟨2, _⟩ => exact (rhs_qk_2 _ _).trans hk)
  rw [el, er]
theorem lhs_pv_0 (i : S128x32x32.Idx) (q : dot_S128x32x32_S128x32x32_S128x32x32_2_1_1_2_0_0.contr.Idx) :
    (dot_S128x32x32_S128x32x32_S128x32x32_2_1_1_2_0_0.lhsIdx i q 0).val = (i 0).val := by
  unfold DotDims.lhsIdx
  rw [dif_pos (show (0 : Fin S128x32x32.rank) ∈ dot_S128x32x32_S128x32x32_S128x32x32_2_1_1_2_0_0.lhsBatch by decide)]
  rfl
theorem lhs_pv_1 (i : S128x32x32.Idx) (q : dot_S128x32x32_S128x32x32_S128x32x32_2_1_1_2_0_0.contr.Idx) :
    (dot_S128x32x32_S128x32x32_S128x32x32_2_1_1_2_0_0.lhsIdx i q 1).val = (i 1).val := by
  unfold DotDims.lhsIdx
  rw [dif_neg (show ¬(1 : Fin S128x32x32.rank) ∈ dot_S128x32x32_S128x32x32_S128x32x32_2_1_1_2_0_0.lhsBatch by decide), dif_pos (show (1 : Fin S128x32x32.rank) ∈ dot_S128x32x32_S128x32x32_S128x32x32_2_1_1_2_0_0.lhsNonContracting by decide)]
  rfl
theorem lhs_pv_2 (i : S128x32x32.Idx) (q : dot_S128x32x32_S128x32x32_S128x32x32_2_1_1_2_0_0.contr.Idx) :
    (dot_S128x32x32_S128x32x32_S128x32x32_2_1_1_2_0_0.lhsIdx i q 2).val = (q ⟨0, by decide⟩).val :=
  dot_S128x32x32_S128x32x32_S128x32x32_2_1_1_2_0_0.lhsIdx_val_of_single rfl i q
theorem rhs_pv_0 (i : S128x32x32.Idx) (q : dot_S128x32x32_S128x32x32_S128x32x32_2_1_1_2_0_0.contr.Idx) :
    (dot_S128x32x32_S128x32x32_S128x32x32_2_1_1_2_0_0.rhsIdx i q 0).val = (i 0).val := by
  unfold DotDims.rhsIdx
  rw [dif_pos (show (0 : Fin S128x32x32.rank) ∈ dot_S128x32x32_S128x32x32_S128x32x32_2_1_1_2_0_0.rhsBatch by decide)]
  rfl
theorem rhs_pv_1 (i : S128x32x32.Idx) (q : dot_S128x32x32_S128x32x32_S128x32x32_2_1_1_2_0_0.contr.Idx) :
    (dot_S128x32x32_S128x32x32_S128x32x32_2_1_1_2_0_0.rhsIdx i q 1).val = (q ⟨0, by decide⟩).val :=
  dot_S128x32x32_S128x32x32_S128x32x32_2_1_1_2_0_0.rhsIdx_val_of_single rfl i q
theorem rhs_pv_2 (i : S128x32x32.Idx) (q : dot_S128x32x32_S128x32x32_S128x32x32_2_1_1_2_0_0.contr.Idx) :
    (dot_S128x32x32_S128x32x32_S128x32x32_2_1_1_2_0_0.rhsIdx i q 2).val = (i 2).val := by
  unfold DotDims.rhsIdx
  rw [dif_neg (show ¬(2 : Fin S128x32x32.rank) ∈ dot_S128x32x32_S128x32x32_S128x32x32_2_1_1_2_0_0.rhsBatch by decide), dif_pos (show (2 : Fin S128x32x32.rank) ∈ dot_S128x32x32_S128x32x32_S128x32x32_2_1_1_2_0_0.rhsNonContracting by decide)]
  rfl

/-- The weighting product into the zero accumulator at (p, q, c): the sum over the 32 key tokens. -/
theorem matmul_pv_apply {φ₁ φ₂ : FTy} (A : FVec Ideal S128x32x32 φ₁) (B : FVec Ideal S128x32x32 φ₂) (p : Fin 128) (q : Fin 32) (c : Fin 32) :
    matmul dot_S128x32x32_S128x32x32_S128x32x32_2_1_1_2_0_0 none A B (constant (F := Ideal) S128x32x32 .f32 0x00000000#32) (ix3 p q c)
      = ∑ k : Fin 32, A (ix3 p q k) * B (ix3 p k c) := by
  simp only [matmul]
  rw [Ideal.matmul_constant_zero_apply, ← Equiv.sum_comp (ValueIdx.contrEquiv1 dot_S128x32x32_S128x32x32_S128x32x32_2_1_1_2_0_0 32 rfl rfl).symm]
  refine Finset.sum_congr rfl fun k _ => ?_
  have hk := ValueIdx.contrEquiv1_symm_val dot_S128x32x32_S128x32x32_S128x32x32_2_1_1_2_0_0 32 rfl rfl k
  have el : dot_S128x32x32_S128x32x32_S128x32x32_2_1_1_2_0_0.lhsIdx (ix3 p q c) ((ValueIdx.contrEquiv1 dot_S128x32x32_S128x32x32_S128x32x32_2_1_1_2_0_0 32 rfl rfl).symm k) = ix3 p q k := funext fun a => Fin.ext (by
    match a with
    | ⟨0, _⟩ => exact lhs_pv_0 _ _
    | ⟨1, _⟩ => exact lhs_pv_1 _ _
    | ⟨2, _⟩ => exact (lhs_pv_2 _ _).trans hk)
  have er : dot_S128x32x32_S128x32x32_S128x32x32_2_1_1_2_0_0.rhsIdx (ix3 p q c) ((ValueIdx.contrEquiv1 dot_S128x32x32_S128x32x32_S128x32x32_2_1_1_2_0_0 32 rfl rfl).symm k) = ix3 p k c := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-! ## One head's operations, each read at an index -/

/-- Columns off … off + 31 of a [128, 32, 64] block. -/
theorem slice_apply (off : Nat) (hs : S128x32x64.Slices ![0, 0, off] S128x32x32) (h : off + 32 ≤ 64)
    (X : FVec Ideal S128x32x64 .f32) (p : Fin 128) (q : Fin 32) (a : Fin 32) :
    extractStridedSlice S128x32x32 ![0, 0, off] X hs (ix3 p q a) = X (ix3 p q (lane off h a)) :=
  extractStridedSlice_apply _ X hs (ix3 p q a) (ix3 p q (lane off h a)) (fun b => match b with
    | ⟨0, _⟩ => by show p.val = 0 + p.val; omega
    | ⟨1, _⟩ => by show q.val = 0 + q.val; omega
    | ⟨2, _⟩ => by show off + a.val = off + a.val; rfl)

/-- The index over (p, q) with k inserted on the reduced last axis is (p, q, k). -/
theorem lift_ix2 (p : Fin 128) (q : Fin 32) (k : Fin 32) :
    reduces_S128x32x32_S128x32.lift (ix2 p q) k = ix3 p q k := funext fun c => Fin.ext (by
  match c with
  | ⟨0, _⟩ => rfl
  | ⟨1, _⟩ => rfl
  | ⟨2, _⟩ => rfl)

/-- A [128, 32] vector given a unit last axis and spread over 32 columns reads its (p, q) entry in every column. -/
theorem keepdims_apply (X : FVec Ideal S128x32 .f32) (p : Fin 128) (q k : Fin 32) :
    broadcastTo S128x32x32 (shapeCast S128x32x1 X shapeCasts_S128x32_S128x32x1) broadcasts_S128x32x1_S128x32x32 (ix3 p q k)
      = X (ix2 p q) := by
  refine (broadcastTo_apply _ broadcasts_S128x32x1_S128x32x32 (ix3 p q k) (ix3 p q (0 : Fin 1)) ?_).trans ?_
  · intro a
    match a with
    | ⟨0, _⟩ => rfl
    | ⟨1, _⟩ => rfl
    | ⟨2, _⟩ => rfl
  · refine (shapeCast_apply _ shapeCasts_S128x32_S128x32x1 _ (ix2 p q) ?_).trans rfl
    rw [Shape.rowMajor_val_two, Shape.rowMajor_val_three]
    show p.val * 32 + q.val = (p.val * 32 + q.val) * 1 + 0
    omega

/-- The scores of one head: the product of the query and key column slices. -/
def headScores (off : Nat) (hs : S128x32x64.Slices ![0, 0, off] S128x32x32) (Q K : FVec Ideal S128x32x64 .f32) :
    FVec Ideal S128x32x32 .f32 :=
  matmul dot_S128x32x32_S128x32x32_S128x32x32_2_2_1_1_0_0 none
    (truncf .bf16 (extractStridedSlice S128x32x32 ![0, 0, off] Q hs) bitsLt_bf16_f32)
    (truncf .bf16 (extractStridedSlice S128x32x32 ![0, 0, off] K hs) bitsLt_bf16_f32)
    (constant S128x32x32 .f32 0x00000000#32)

/-- The row maxima of a [128, 32, 32] block of scores, joined with minus infinity. -/
def headMax (S : FVec Ideal S128x32x32 .f32) : FVec Ideal S128x32 .f32 :=
  maximumf (broadcast S128x32 (Scalar.ofBits (F := Ideal) .f32 0xFF800000#32))
    (multiReduction .maximumf [2] S128x32 S 0xFF800000#32 reduces_S128x32x32_S128x32 (.inl rfl) rfl)

/-- The shifted exponentials. -/
def headExp (S : FVec Ideal S128x32x32 .f32) : FVec Ideal S128x32x32 .f32 :=
  exp (subf S (broadcastTo S128x32x32 (shapeCast S128x32x1 (headMax S) shapeCasts_S128x32_S128x32x1) broadcasts_S128x32x1_S128x32x32))

/-- The softmax weights: each exponential over its row's sum. -/
def headProb (S : FVec Ideal S128x32x32 .f32) : FVec Ideal S128x32x32 .f32 :=
  divf (headExp S) (broadcastTo S128x32x32 (shapeCast S128x32x1
    (multiReduction .add [2] S128x32 (headExp S) 0x00000000#32 reduces_S128x32x32_S128x32 (.inl rfl) rfl)
    shapeCasts_S128x32_S128x32x1) broadcasts_S128x32x1_S128x32x32)

/-- One head: the weights times the value column slice. -/
def headTerm (off : Nat) (hs : S128x32x64.Slices ![0, 0, off] S128x32x32) (Q K V : FVec Ideal S128x32x64 .f32) :
    FVec Ideal S128x32x32 .f32 :=
  matmul dot_S128x32x32_S128x32x32_S128x32x32_2_1_1_2_0_0 none
    (truncf .bf16 (headProb (headScores off hs Q K)) bitsLt_bf16_f32)
    (truncf .bf16 (extractStridedSlice S128x32x32 ![0, 0, off] V hs) bitsLt_bf16_f32)
    (constant S128x32x32 .f32 0x00000000#32)

theorem headScores_apply (off : Nat) (hs : S128x32x64.Slices ![0, 0, off] S128x32x32) (h : off + 32 ≤ 64)
    (Q K : FVec Ideal S128x32x64 .f32) (p : Fin 128) (q k : Fin 32) :
    headScores off hs Q K (ix3 p q k) = score (rowOfBlk Q p) (rowOfBlk K p) off h q k := by
  unfold headScores
  rw [matmul_qk_apply]
  unfold score rowOfBlk
  refine Finset.sum_congr rfl fun a _ => ?_
  rw [truncf_apply, truncf_apply, slice_apply off hs h, slice_apply off hs h]

theorem headMax_apply (S : FVec Ideal S128x32x32 .f32) (p : Fin 128) (q : Fin 32) :
    headMax S (ix2 p q) = rowMax (fun k => S (ix3 p q k)) := by
  unfold headMax rowMax negInf
  rw [maximumf_apply, broadcast_apply]
  refine congrArg (max _) ?_
  refine (Ideal.multiReduction_maximumf_single S 0xFF800000#32 reduces_S128x32x32_S128x32 (.inl rfl) rfl (ix2 p q)).trans ?_
  refine congrArg (fun g : Fin 32 → EReal => (Finset.univ : Finset (Fin 32)).fold max (Ideal.ofBits .f32 0xFF800000#32) g) ?_
  funext k
  exact congrArg S (lift_ix2 p q k)

theorem headExp_apply (S : FVec Ideal S128x32x32 .f32) (p : Fin 128) (q k : Fin 32) :
    headExp S (ix3 p q k) = expo (fun k => S (ix3 p q k)) k := by
  unfold headExp expo
  show Ideal.exp (S (ix3 p q k) - broadcastTo S128x32x32 (shapeCast S128x32x1 (headMax S) shapeCasts_S128x32_S128x32x1) broadcasts_S128x32x1_S128x32x32 (ix3 p q k)) = _
  rw [keepdims_apply, headMax_apply]

theorem headProb_apply (S : FVec Ideal S128x32x32 .f32) (p : Fin 128) (q k : Fin 32) :
    headProb S (ix3 p q k) = prob (fun k => S (ix3 p q k)) k := by
  unfold headProb prob
  rw [divf_apply, keepdims_apply, headExp_apply]
  refine congrArg (Ideal.div _) ?_
  refine (Ideal.multiReduction_add_single (headExp S) 0x00000000#32 reduces_S128x32x32_S128x32 (.inl rfl) rfl (ix2 p q)).trans ?_
  refine Finset.sum_congr rfl fun k' _ => ?_
  exact (congrArg (headExp S) (lift_ix2 p q k')).trans (headExp_apply S p q k')

/-- One head at (p, q, a): the attention output of batch element p at query q and column off + a. -/
theorem headTerm_apply (off : Nat) (hs : S128x32x64.Slices ![0, 0, off] S128x32x32) (h : off + 32 ≤ 64)
    (Q K V : FVec Ideal S128x32x64 .f32) (p : Fin 128) (q a : Fin 32) :
    headTerm off hs Q K V (ix3 p q a)
      = attn (rowOfBlk Q p) (rowOfBlk K p) (rowOfBlk V p) off h q (lane off h a) := by
  unfold headTerm
  rw [matmul_pv_apply]
  unfold attn
  refine Finset.sum_congr rfl fun k _ => ?_
  rw [truncf_apply, truncf_apply, headProb_apply, slice_apply off hs h]
  have hsc : (fun k => headScores off hs Q K (ix3 p q k)) = score (rowOfBlk Q p) (rowOfBlk K p) off h q :=
    funext fun k => headScores_apply off hs h Q K p q k
  rw [hsc]
  rfl

/-! ## The stored payload -/

theorem pay4_apply (v0 : Vec Ideal S128x32x64 .f32) (w : Vec Ideal S64x64 .f32) (p : Fin 128) (f : Fin 32) (e : Fin 64) :
    k0_pay4 (F := Ideal) v0 w (ix3 p f e) = proj (rowOfBlk v0 p) (wt w) f e := pay3_apply v0 w p f e
theorem pay5_apply (v0 : Vec Ideal S128x32x64 .f32) (w : Vec Ideal S64x64 .f32) (p : Fin 128) (f : Fin 32) (e : Fin 64) :
    k0_pay5 (F := Ideal) v0 w (ix3 p f e) = proj (rowOfBlk v0 p) (wt w) f e := pay3_apply v0 w p f e
theorem pay6_apply (v0 : Vec Ideal S128x32x64 .f32) (w : Vec Ideal S64x64 .f32) (p : Fin 128) (f : Fin 32) (e : Fin 64) :
    k0_pay6 (F := Ideal) v0 w (ix3 p f e) = proj (rowOfBlk v0 p) (wt w) f e := pay3_apply v0 w p f e

/-- Batch element p of a projected block is the projection of batch element p. -/
theorem row_pay3 (v0 : Vec Ideal S128x32x64 .f32) (w : Vec Ideal S64x64 .f32) (p : Fin 128) :
    rowOfBlk (k0_pay3 (F := Ideal) v0 w) p = proj (rowOfBlk v0 p) (wt w) := funext fun f => funext fun d => pay3_apply v0 w p f d
theorem row_pay4 (v0 : Vec Ideal S128x32x64 .f32) (w : Vec Ideal S64x64 .f32) (p : Fin 128) :
    rowOfBlk (k0_pay4 (F := Ideal) v0 w) p = proj (rowOfBlk v0 p) (wt w) := funext fun f => funext fun d => pay4_apply v0 w p f d
theorem row_pay5 (v0 : Vec Ideal S128x32x64 .f32) (w : Vec Ideal S64x64 .f32) (p : Fin 128) :
    rowOfBlk (k0_pay5 (F := Ideal) v0 w) p = proj (rowOfBlk v0 p) (wt w) := funext fun f => funext fun d => pay5_apply v0 w p f d

/-- The first head is the head of columns 0 … 31 over the three projected blocks. -/
theorem pay7_eq (v0 : Vec Ideal S128x32x64 .f32) (v2 v4 v6 : Vec Ideal S64x64 .f32) :
    k0_pay7 (F := Ideal) v0 v2 v4 v6
      = headTerm 0 slices_S128x32x64_o0_0_0_S128x32x32 (k0_pay3 v0 v2) (k0_pay4 v0 v4) (k0_pay5 v0 v6) := rfl

/-- The stored value: the two heads side by side, plus the residual projection, clamped below at zero. -/
theorem pay1_eq (v15 v16 v17 v18 : FVec Ideal S128x32x64 .f32) (v38 : FVec Ideal S128x32x32 .f32) :
    k0_pay1 (F := Ideal) v15 v16 v17 v18 v38
      = maximumf (addf (concatenate S128x32x64 2 [⟨S128x32x32, v38⟩,
            ⟨S128x32x32, headTerm 32 slices_S128x32x64_o0_0_32_S128x32x32 v15 v16 v17⟩]
          concatenates_S128x32x32_S128x32x32_S128x32x64_d2) v18)
        (broadcast S128x32x64 (Scalar.ofBits (F := Ideal) .f32 0x00000000#32)) := rfl

/-- The attention output depends on the head's first column only through its value. -/
theorem attn_congr_off (Q K V : Row) {off off' : Nat} (e : off = off') (h : off + 32 ≤ 64) (h' : off' + 32 ≤ 64)
    (q : Fin 32) (c : Fin 64) : attn Q K V off h q c = attn Q K V off' h' q c := by
  subst e; rfl

/-- The two heads side by side at (p, q, e): the attention output of the head that column e belongs to. -/
theorem heads_apply (Q K V : FVec Ideal S128x32x64 .f32) (p : Fin 128) (q : Fin 32) (e : Fin 64) :
    concatenate S128x32x64 2 [⟨S128x32x32, headTerm 0 slices_S128x32x64_o0_0_0_S128x32x32 Q K V⟩,
        ⟨S128x32x32, headTerm 32 slices_S128x32x64_o0_0_32_S128x32x32 Q K V⟩]
      concatenates_S128x32x32_S128x32x32_S128x32x64_d2 (ix3 p q e)
      = attn (rowOfBlk Q p) (rowOfBlk K p) (rowOfBlk V p) (headOff e) (headOff_le e) q e := by
  have he := e.isLt
  by_cases hlt : e.val < 32
  · have h0 : headOff e = 0 := by unfold headOff; omega
    refine (concatenate_pair_apply_left (t := S128x32x64) (s₁ := S128x32x32) (s₂ := S128x32x32) (2 : Fin 3) _ _
      concatenates_S128x32x32_S128x32x32_S128x32x64_d2 (ix3 p q e) (rfl : S128x32x32.rank = S128x32x64.rank)
      (ix3 p q (⟨e.val, hlt⟩ : Fin 32)) (fun b => match b with
        | ⟨0, _⟩ => rfl
        | ⟨1, _⟩ => rfl
        | ⟨2, _⟩ => rfl)).trans ?_
    rw [headTerm_apply 0 _ (by omega), attn_congr_off _ _ _ h0 (headOff_le e) (by omega)]
    refine congrArg (attn _ _ _ 0 _ q) (Fin.ext ?_)
    show 0 + e.val = e.val
    omega
  · have h32 : headOff e = 32 := by unfold headOff; omega
    refine (concatenate_pair_apply_right (t := S128x32x64) (s₁ := S128x32x32) (s₂ := S128x32x32) (2 : Fin 3) _ _
      concatenates_S128x32x32_S128x32x32_S128x32x64_d2 (ix3 p q e) (rfl : S128x32x32.rank = S128x32x64.rank) (rfl : S128x32x32.rank = S128x32x64.rank)
      (ix3 p q (⟨e.val - 32, by omega⟩ : Fin 32)) (fun b hb => match b, hb with
        | ⟨0, _⟩, _ => rfl
        | ⟨1, _⟩, _ => rfl
        | ⟨2, _⟩, hb => absurd rfl hb) (by show e.val - 32 + 32 = e.val; omega)).trans ?_
    rw [headTerm_apply 32 _ (by omega), attn_congr_off _ _ _ h32 (headOff_le e) (by omega)]
    refine congrArg (attn _ _ _ 32 _ q) (Fin.ext ?_)
    show 32 + (e.val - 32) = e.val
    omega

theorem hz3 : (![0, 0, 0] : Fin 3 → Nat) = fun _ => 0 := funext fun a => by fin_cases a <;> rfl
theorem hz2 : (![0, 0] : Fin 2 → Nat) = fun _ => 0 := funext fun a => by fin_cases a <;> rfl

/-- What one grid point's body stores is the self-attention function of the point's input blocks. -/
theorem out_is_Gblk (x0 : Vec Ideal S128x32x64 .f32) (x1 x2 x3 x4 : Vec Ideal S64x64 .f32) :
    out0_5 (F := Ideal) x0 x1 x2 x3 x4 = Gblk x0 x1 x2 x3 x4 := by
  unfold out0_5
  rw [View.canon_unit_zero hz3]
  simp only [View.ld_unit_zero (S := S128x32x64) hz3, View.ld_unit_zero (S := S64x64) hz2]
  funext i
  obtain ⟨p, q, e, rfl⟩ : ∃ (p : Fin 128) (q : Fin 32) (e : Fin 64), i = ix3 p q e := ⟨i 0, i 1, i 2, eq_ix3 i⟩
  rw [pay1_eq, pay7_eq, maximumf_apply, addf_apply, broadcast_apply, heads_apply, pay6_apply, row_pay3, row_pay4, row_pay5]
  rfl

end Cert.KernelIdeal.BlockValue

end
-- ==== Proof.KernelArray.lean ====
/-
  From blocks to the array.  Grid point t of the 128 stages batch elements 128·t … 128·t + 127 of the input
  (all 32 tokens, all 64 features) and the four weight matrices whole, and writes back the same batch range of
  the output.  What it writes is the self-attention function of its input blocks, so it is the block of the
  whole-array function `G` at that batch range; the 128 blocks tile the output array, so after the run the
  array is `G` of the argument arrays.
-/
import proofs.«169074_j83674552861142_1_alg».proof.Proof.Gen.KernelIdeal.Value
import proofs.«169074_j83674552861142_1_alg».proof.Proof.AttentionSpec
import proofs.«169074_j83674552861142_1_alg».proof.Proof.KernelBlock
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.SelfAttn
open Idealize.ShloMosaic.Pipeline (Dat)

variable (m : (ℓ : Loc nD τ sig) → Buf (Elt Ideal) ℓ) (ρ : Dev nD → PrngReg)

/-- The printed index maps over the grid: the input and the output move along the batch axis with the grid
    point and stay at block 0 on the other two axes; every weight window stays at block (0, 0). -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The array the input window stages, and the arrays of the weight windows, are the arguments. -/
abbrev X (c : Dev nD) : (⟨3, ![16384, 32, 64]⟩ : Shape).Idx → EReal := V m c main_arg0
abbrev W1 (c : Dev nD) : (⟨2, ![64, 64]⟩ : Shape).Idx → EReal := V m c main_arg1
abbrev W2 (c : Dev nD) : (⟨2, ![64, 64]⟩ : Shape).Idx → EReal := V m c main_arg2
abbrev W3 (c : Dev nD) : (⟨2, ![64, 64]⟩ : Shape).Idx → EReal := V m c main_arg3
abbrev W4 (c : Dev nD) : (⟨2, ![64, 64]⟩ : Shape).Idx → EReal := V m c main_arg4

/-- The input block at point t, at batch element p of the block, is batch element 128·t + p of the array. -/
theorem xblk_apply (c : Dev nD) (t : Fin cfg0.N) (p : Fin 128) (f : Fin 32) (d : Fin 64) (b : Fin 16384)
    (hb : b.val = t.val * 128 + p.val) :
    iblk m c 0 t (ix3 p f d) = X m c (ix3 b f d) := by
  obtain ⟨e0, e1, e2, -⟩ := idx_facts t
  show V m c main_arg0 (((cfg0.win 0).blk t).view.emb (ix3 p f d)) = V m c main_arg0 (ix3 b f d)
  congr 1
  funext a; apply Fin.ext
  match a with
  | ⟨0, _⟩ => show win0_0.index t (0 : Fin 3) * 128 + 1 * p.val = b.val; omega
  | ⟨1, _⟩ => show win0_0.index t (1 : Fin 3) * 32 + 1 * f.val = f.val; omega
  | ⟨2, _⟩ => show win0_0.index t (2 : Fin 3) * 64 + 1 * d.val = d.val; omega

/-- A weight block is the whole weight array. -/
theorem w1blk_apply (c : Dev nD) (t : Fin cfg0.N) (d e : Fin 64) : iblk m c 1 t (ix2 d e) = W1 m c (ix2 d e) := by
  obtain ⟨-, -, -, -, -, -, e0, e1, -⟩ := idx_facts t
  show V m c main_arg1 (((cfg0.win 1).blk t).view.emb (ix2 d e)) = V m c main_arg1 (ix2 d e)
  congr 1
  funext a; apply Fin.ext
  match a with
  | ⟨0, _⟩ => show win0_1.index t (0 : Fin 2) * 64 + 1 * d.val = d.val; omega
  | ⟨1, _⟩ => show win0_1.index t (1 : Fin 2) * 64 + 1 * e.val = e.val; omega

theorem w2blk_apply (c : Dev nD) (t : Fin cfg0.N) (d e : Fin 64) : iblk m c 2 t (ix2 d e) = W2 m c (ix2 d e) := by
  obtain ⟨-, -, -, -, -, -, -, -, e0, e1, -⟩ := idx_facts t
  show V m c main_arg2 (((cfg0.win 2).blk t).view.emb (ix2 d e)) = V m c main_arg2 (ix2 d e)
  congr 1
  funext a; apply Fin.ext
  match a with
  | ⟨0, _⟩ => show win0_2.index t (0 : Fin 2) * 64 + 1 * d.val = d.val; omega
  | ⟨1, _⟩ => show win0_2.index t (1 : Fin 2) * 64 + 1 * e.val = e.val; omega

theorem w3blk_apply (c : Dev nD) (t : Fin cfg0.N) (d e : Fin 64) : iblk m c 3 t (ix2 d e) = W3 m c (ix2 d e) := by
  obtain ⟨-, -, -, -, -, -, -, -, -, -, e0, e1, -⟩ := idx_facts t
  show V m c main_arg3 (((cfg0.win 3).blk t).view.emb (ix2 d e)) = V m c main_arg3 (ix2 d e)
  congr 1
  funext a; apply Fin.ext
  match a with
  | ⟨0, _⟩ => show win0_3.index t (0 : Fin 2) * 64 + 1 * d.val = d.val; omega
  | ⟨1, _⟩ => show win0_3.index t (1 : Fin 2) * 64 + 1 * e.val = e.val; omega

theorem w4blk_apply (c : Dev nD) (t : Fin cfg0.N) (d e : Fin 64) : iblk m c 4 t (ix2 d e) = W4 m c (ix2 d e) := by
  obtain ⟨-, -, -, -, -, -, -, -, -, -, -, -, e0, e1⟩ := idx_facts t
  show V m c main_arg4 (((cfg0.win 4).blk t).view.emb (ix2 d e)) = V m c main_arg4 (ix2 d e)
  congr 1
  funext a; apply Fin.ext
  match a with
  | ⟨0, _⟩ => show win0_4.index t (0 : Fin 2) * 64 + 1 * d.val = d.val; omega
  | ⟨1, _⟩ => show win0_4.index t (1 : Fin 2) * 64 + 1 * e.val = e.val; omega

/-- Where the output block's index (p, f, e) at point t lies in the output array: batch element 128·t + p, the
    same token and column. -/
theorem oemb_val (t : Fin cfg0.N) (j : S128x32x64.Idx) :
    ((((cfg0.win 5).blk t).view.emb j) 0).val = t.val * 128 + (j 0).val
    ∧ ((((cfg0.win 5).blk t).view.emb j) 1).val = (j 1).val
    ∧ ((((cfg0.win 5).blk t).view.emb j) 2).val = (j 2).val := by
  obtain ⟨-, -, -, e0, e1, e2, -⟩ := idx_facts t
  refine ⟨?_, ?_, ?_⟩
  · show win0_5.index t (0 : Fin 3) * 128 + 1 * (j 0).val = _; omega
  · show win0_5.index t (1 : Fin 3) * 32 + 1 * (j 1).val = _; omega
  · show win0_5.index t (2 : Fin 3) * 64 + 1 * (j 2).val = _; omega

/-- WHAT POINT t WRITES BACK is block t of `G` of the argument arrays. -/
theorem flushed_eq (c : Dev nD) (t : Fin cfg0.N) :
    (dats m 0 c).flushed 5 t
      = ((cfg0.win 5).blk t).view.read (Elt Ideal) (G (X m c) (W1 m c) (W2 m c) (W3 m c) (W4 m c)) := by
  rw [Cert.KernelIdeal.Value.flushed5, Cert.KernelIdeal.BlockValue.out_is_Gblk (iblk m c 0 t) (iblk m c 1 t) (iblk m c 2 t) (iblk m c 3 t) (iblk m c 4 t)]
  funext j
  obtain ⟨h0, h1, h2⟩ := oemb_val t j
  show Gblk (iblk m c 0 t) (iblk m c 1 t) (iblk m c 2 t) (iblk m c 3 t) (iblk m c 4 t) j
    = G (X m c) (W1 m c) (W2 m c) (W3 m c) (W4 m c) (((cfg0.win 5).blk t).view.emb j)
  unfold Gblk G
  have hx : rowOfBlk (iblk m c 0 t) (j 0) = rowOfArr (X m c) ((((cfg0.win 5).blk t).view.emb j) 0) := by
    funext f d
    exact xblk_apply m c t (j 0) f d _ h0
  have hw1 : wt (iblk m c 1 t) = wt (W1 m c) := by funext d e; exact w1blk_apply m c t d e
  have hw2 : wt (iblk m c 2 t) = wt (W2 m c) := by funext d e; exact w2blk_apply m c t d e
  have hw3 : wt (iblk m c 3 t) = wt (W3 m c) := by funext d e; exact w3blk_apply m c t d e
  have hw4 : wt (iblk m c 4 t) = wt (W4 m c) := by funext d e; exact w4blk_apply m c t d e
  have e1 : (((cfg0.win 5).blk t).view.emb j) 1 = j 1 := Fin.ext h1
  have e2 : (((cfg0.win 5).blk t).view.emb j) 2 = j 2 := Fin.ext h2
  show rowOut _ _ _ _ _ _ _ = rowOut _ _ _ _ _ _ _
  rw [hx, hw1, hw2, hw3, hw4, e1, e2]

/-- An index of the output array is in point t's block iff each coordinate is in the block's range on its axis. -/
theorem mem_blk (t : Fin cfg0.N) (i : S16384x32x64.Idx) :
    i ∈ ((cfg0.win 5).blk t).view.set ↔ ∀ a : Fin 3, win0_5.index t a * S128x32x64.size a ≤ (i a).val ∧ (i a).val < win0_5.index t a * S128x32x64.size a + S128x32x64.size a := by
  show i ∈ ((View.whole main_v0).slice (win0_5.rect t)).set ↔ _
  rw [View.set_slice_whole, Rect.mem_set_unit]
  exact Iff.rfl

/-- The 128 blocks tile the output array: batch element b lies in the block of point ⌊b / 128⌋. -/
theorem cover (i : S16384x32x64.Idx) :
    ∃ t : Fin cfg0.N, (cfg0.win 5).flush t = true ∧ i ∈ ((cfg0.win 5).blk t).view.set := by
  have hi0 : (i 0).val < 16384 := (i 0).isLt
  have hi1 : (i 1).val < 32 := (i 1).isLt
  have hi2 : (i 2).val < 64 := (i 2).isLt
  have hN : cfg0.N = 128 := rfl
  let t : Fin cfg0.N := ⟨(i 0).val / 128, by rw [hN]; omega⟩
  obtain ⟨-, -, -, e0, e1, e2, -⟩ := idx_facts t
  have ht : t.val = (i 0).val / 128 := rfl
  refine ⟨t, flush0_5 t, ?_⟩
  rw [mem_blk]
  intro a
  match a with
  | ⟨0, _⟩ => show win0_5.index t (0 : Fin 3) * 128 ≤ (i 0).val ∧ (i 0).val < win0_5.index t (0 : Fin 3) * 128 + 128; omega
  | ⟨1, _⟩ => show win0_5.index t (1 : Fin 3) * 32 ≤ (i 1).val ∧ (i 1).val < win0_5.index t (1 : Fin 3) * 32 + 32; omega
  | ⟨2, _⟩ => show win0_5.index t (2 : Fin 3) * 64 ≤ (i 2).val ∧ (i 2).val < win0_5.index t (2 : Fin 3) * 64 + 64; omega

/-- THE OUTPUT ARRAY after the run is `G` of the argument arrays. -/
theorem final (c : Dev nD) :
    (dats m 0 c).arrAt 5 cfg0.N = G (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 5 _ (fun t _ => flushed_eq m c t) cover

/-- The run: every weakly fair execution ends with the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.ArrayValue

end
-- ==== Proof.lean ====
/-
  The certificate of the two-head self-attention kernel against its whole-array reference.

  Both programs compute, for every batch element, Q = X·Wq, K = X·Wk, V = X·Wv, R = X·Wr, per head the scores
  Q·Kᵀ over the head's 32 columns, the stabilised softmax of each score row, the weighted sum of V, and
  max(attention + R, 0).  Read over the extended reals with exact operations the two are the same function
  `Cert.SelfAttn.G` of the argument arrays (Proof/AttentionSpec.lean): the reference by reading its operations
  one at a time at an index (Proof/RefValue.lean), the kernel by reading what one grid point stores
  (Proof/KernelBlock.lean) and tiling the output array by the 128 grid points' blocks (Proof/KernelArray.lean).
  No algebraic law and no finiteness of the inputs is used: the two sides apply the same operations in the same
  order, index by index.  The three frames are the generated frame runs; the idealization rewrote nothing, so
  `preserves` is trivial.
-/
import proofs.«169074_j83674552861142_1_alg».proof.Defs
import proofs.«169074_j83674552861142_1_alg».proof.Proof.Gen.Kernel
import proofs.«169074_j83674552861142_1_alg».proof.Proof.Gen.Kernel.Skeleton
import proofs.«169074_j83674552861142_1_alg».proof.Proof.Gen.Kernel.Launch
import proofs.«169074_j83674552861142_1_alg».proof.Proof.Gen.Kernel.Points
import proofs.«169074_j83674552861142_1_alg».proof.Proof.Gen.Kernel.Frame
import proofs.«169074_j83674552861142_1_alg».proof.Proof.Gen.KernelIdeal
import proofs.«169074_j83674552861142_1_alg».proof.Proof.Gen.KernelIdeal.Skeleton
import proofs.«169074_j83674552861142_1_alg».proof.Proof.Gen.KernelIdeal.Launch
import proofs.«169074_j83674552861142_1_alg».proof.Proof.Gen.KernelIdeal.Points
import proofs.«169074_j83674552861142_1_alg».proof.Proof.Gen.KernelIdeal.Frame
import proofs.«169074_j83674552861142_1_alg».proof.Proof.Gen.ReferenceIdeal
import proofs.«169074_j83674552861142_1_alg».proof.Proof.Gen.KernelIdeal.Value
import proofs.«169074_j83674552861142_1_alg».proof.Proof.Gen.ReferenceIdeal.Run
import proofs.«169074_j83674552861142_1_alg».proof.Proof.Gen.ReferenceIdeal.Read
import proofs.«169074_j83674552861142_1_alg».proof.Proof.Gen.Pre_finite_inputs
import proofs.«169074_j83674552861142_1_alg».proof.Proof.AttentionSpec
import proofs.«169074_j83674552861142_1_alg».proof.Proof.RefValue
import proofs.«169074_j83674552861142_1_alg».proof.Proof.KernelBlock
import proofs.«169074_j83674552861142_1_alg».proof.Proof.KernelArray
import Idealize.ShloMosaic.Adequacy
import Idealize.ShloMosaic.Init

noncomputable section

namespace Cert.Proof

open Idealize.ShloMosaic Idealize.SL.Sem Cert.SelfAttn

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array ends at `G` of its arguments and
    the reference's result at its composed term, which is `G` of the same arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_is_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
